-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel

variable [Facts]

def fn {F : FTy → Type} [FloatOps F] (main_arg0 : FVec F S100000x32 .f32) (main_arg1 : IVec S100000x32 32) (main_arg2 : FVec F S100000x32 .f32) (main_arg3 : FVec F S100000x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg2
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S100000x32 .f32 := Host.absf main_arg3
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  main_v13
-- ==== Kernel.lean ====
abbrev S100000x32 : Shape := ⟨2, ![100000, 32]⟩
abbrev S_ : Shape := ⟨0, ![]⟩
abbrev S100000x32x1 : Shape := ⟨3, ![100000, 32, 1]⟩
abbrev S1 : Shape := ⟨1, ![1]⟩
abbrev S1x1x1 : Shape := ⟨3, ![1, 1, 1]⟩
abbrev S100000x32x32 : Shape := ⟨3, ![100000, 32, 32]⟩
abbrev S100000x1024 : Shape := ⟨2, ![100000, 1024]⟩
abbrev S100000x1088 : Shape := ⟨2, ![100000, 1088]⟩
abbrev S2000x1024 : Shape := ⟨2, ![2000, 1024]⟩
abbrev S2000x32 : Shape := ⟨2, ![2000, 32]⟩
abbrev S2000x1088 : Shape := ⟨2, ![2000, 1088]⟩
abbrev S2000x64 : Shape := ⟨2, ![2000, 64]⟩

abbrev nBuf : Space → Nat
  | .hbm => 29
  | .vmem => 8
  | .smem => 0
  | _ => 0

abbrev bufTy : (tb : Table) → Fin (tcTables nBuf tb) → BufTy
  | .hbm, ⟨0, _⟩ => ⟨S100000x32, .f32⟩
  | .hbm, ⟨1, _⟩ => ⟨S100000x32, .i32⟩
  | .hbm, ⟨2, _⟩ => ⟨S100000x32, .f32⟩
  | .hbm, ⟨3, _⟩ => ⟨S100000x32, .f32⟩
  | .hbm, ⟨4, _⟩ => ⟨S_, .i32⟩
  | .hbm, ⟨5, _⟩ => ⟨S100000x32, .i32⟩
  | .hbm, ⟨6, _⟩ => ⟨S100000x32, .i1⟩
  | .hbm, ⟨7, _⟩ => ⟨S_, .i32⟩
  | .hbm, ⟨8, _⟩ => ⟨S100000x32, .i32⟩
  | .hbm, ⟨9, _⟩ => ⟨S100000x32, .i32⟩
  | .hbm, ⟨10, _⟩ => ⟨S100000x32, .i32⟩
  | .hbm, ⟨11, _⟩ => ⟨S100000x32x1, .i32⟩
  | .hbm, ⟨12, _⟩ => ⟨S1, .i32⟩
  | .hbm, ⟨13, _⟩ => ⟨S_, .i32⟩
  | .hbm, ⟨14, _⟩ => ⟨S100000x32x1, .i32⟩
  | .hbm, ⟨15, _⟩ => ⟨S100000x32x1, .i1⟩
  | .hbm, ⟨16, _⟩ => ⟨S1x1x1, .i32⟩
  | .hbm, ⟨17, _⟩ => ⟨S100000x32x1, .i32⟩
  | .hbm, ⟨18, _⟩ => ⟨S100000x32x1, .i1⟩
  | .hbm, ⟨19, _⟩ => ⟨S100000x32x1, .i1⟩
  | .hbm, ⟨20, _⟩ => ⟨S_, .i1⟩
  | .hbm, ⟨21, _⟩ => ⟨S100000x32, .i1⟩
  | .hbm, ⟨22, _⟩ => ⟨S100000x32x32, .f32⟩
  | .hbm, ⟨23, _⟩ => ⟨S100000x32x32, .i1⟩
  | .hbm, ⟨24, _⟩ => ⟨S_, .f32⟩
  | .hbm, ⟨25, _⟩ => ⟨S100000x32x32, .f32⟩
  | .hbm, ⟨26, _⟩ => ⟨S100000x32x32, .f32⟩
  | .hbm, ⟨27, _⟩ => ⟨S100000x1024, .f32⟩
  | .hbm, ⟨28, _⟩ => ⟨S100000x1088, .f32⟩
  | .local _ .vmem, ⟨0, _⟩ => ⟨S2000x1024, .f32⟩
  | .local _ .vmem, ⟨1, _⟩ => ⟨S2000x1024, .f32⟩
  | .local _ .vmem, ⟨2, _⟩ => ⟨S2000x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x1088, .f32⟩
  | .local _ .vmem, ⟨7, _⟩ => ⟨S2000x1088, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  bcast_S_S100000x32x1 : S_.BroadcastsInDim S100000x32x1 (![] : Fin 0 → Fin S100000x32x1.rank)
  bcast_S1_S1x1x1_2 : S1.BroadcastsInDim S1x1x1 (![2] : Fin 1 → Fin S1x1x1.rank)
  bcast_S1x1x1_S100000x32x1_0_1_2 : S1x1x1.BroadcastsInDim S100000x32x1 (![0, 1, 2] : Fin 3 → Fin S100000x32x1.rank)
  reducesTo_S100000x32x1_S100000x32_d2 : S100000x32x1.ReducesTo [2] S100000x32
  h_S_ : 0 < S_.numel
  bcast_S100000x32_S100000x32x32_0_1 : S100000x32.BroadcastsInDim S100000x32x32 (![0, 1] : Fin 2 → Fin S100000x32x32.rank)
  bcast_S_S100000x32x32 : S_.BroadcastsInDim S100000x32x32 (![] : Fin 0 → Fin S100000x32x32.rank)
  shapeCasts_S100000x32x32_S100000x1024 : S100000x32x32.ShapeCasts S100000x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S2000x1088_S2000x1024_0_0 : ∀ a, (![0, 0] : Fin 2 → Nat) a + S2000x1024.size a ≤ S2000x1088.size a
  inb_S2000x32_S2000x32_0_0 : ∀ a, (![0, 0] : Fin 2 → Nat) a + S2000x32.size a ≤ S2000x32.size a
  h_S2000x32 : 0 < S2000x32.numel
  concatenates_S2000x32_S2000x32_S2000x64_d1 : Shape.Concatenates [S2000x32, S2000x32] S2000x64 1
  inb_S2000x1088_S2000x64_0_1024 : ∀ a, (![0, 1024] : Fin 2 → Nat) a + S2000x64.size a ≤ S2000x1088.size a
  h_S2000x64 : 0 < S2000x64.numel
  gather_S100000x32_S100000x32x1_S100000x32x32_2_0_n_n_0_2_132_wf : GatherDims.WF S100000x32 S100000x32x1 S100000x32x32 [2] [0] [] [0] [] 2 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1088.size a ≤ S100000x1088.size a
  hwx0_3 : ∀ i : grid0.Coords, EltTy.bits .f32 = 32 ∨ (Rect.block (s := S100000x1088) S2000x1088.size (cc0_transform_3 i) (hinb0_3 i)).WholeWords (EltTy.packing .f32)

variable [Facts₀]

def gather_S100000x32_S100000x32x1_S100000x32x32_2_0_n_n_0_2_132 : GatherDims S100000x32 S100000x32x1 S100000x32x32 where
  offsetDims := [2]
  collapsedSliceDims := [0]
  operandBatchingDims := []
  startIndicesBatchingDims := []
  startIndexMap := [0]
  indexVectorDim := 2
  sliceSizes := ![1, 32]
  wf := gather_S100000x32_S100000x32x1_S100000x32x32_2_0_n_n_0_2_132_wf

abbrev win0_0 : Pipeline.Window sig grid0 :=
  Pipeline.Window.ofSpec (Memref.whole main_v1) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x1088.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x32 : Shape := ⟨2, ![100000, 32]⟩
abbrev S_ : Shape := ⟨0, ![]⟩
abbrev S100000x32x1 : Shape := ⟨3, ![100000, 32, 1]⟩
abbrev S1 : Shape := ⟨1, ![1]⟩
abbrev S1x1x1 : Shape := ⟨3, ![1, 1, 1]⟩
abbrev S100000x32x32 : Shape := ⟨3, ![100000, 32, 32]⟩
abbrev S100000x1024 : Shape := ⟨2, ![100000, 1024]⟩
abbrev S100000x1088 : Shape := ⟨2, ![100000, 1088]⟩

abbrev nBuf : Space → Nat
  | .hbm => 29
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .i32⟩
  | .hbm, ⟨2, _⟩ => ⟨S100000x32, .f32⟩
  | .hbm, ⟨3, _⟩ => ⟨S100000x32, .f32⟩
  | .hbm, ⟨4, _⟩ => ⟨S_, .i32⟩
  | .hbm, ⟨5, _⟩ => ⟨S100000x32, .i32⟩
  | .hbm, ⟨6, _⟩ => ⟨S100000x32, .i1⟩
  | .hbm, ⟨7, _⟩ => ⟨S_, .i32⟩
  | .hbm, ⟨8, _⟩ => ⟨S100000x32, .i32⟩
  | .hbm, ⟨9, _⟩ => ⟨S100000x32, .i32⟩
  | .hbm, ⟨10, _⟩ => ⟨S100000x32, .i32⟩
  | .hbm, ⟨11, _⟩ => ⟨S100000x32x1, .i32⟩
  | .hbm, ⟨12, _⟩ => ⟨S1, .i32⟩
  | .hbm, ⟨13, _⟩ => ⟨S_, .i32⟩
  | .hbm, ⟨14, _⟩ => ⟨S100000x32x1, .i32⟩
  | .hbm, ⟨15, _⟩ => ⟨S100000x32x1, .i1⟩
  | .hbm, ⟨16, _⟩ => ⟨S1x1x1, .i32⟩
  | .hbm, ⟨17, _⟩ => ⟨S100000x32x1, .i32⟩
  | .hbm, ⟨18, _⟩ => ⟨S100000x32x1, .i1⟩
  | .hbm, ⟨19, _⟩ => ⟨S100000x32x1, .i1⟩
  | .hbm, ⟨20, _⟩ => ⟨S_, .i1⟩
  | .hbm, ⟨21, _⟩ => ⟨S100000x32, .i1⟩
  | .hbm, ⟨22, _⟩ => ⟨S100000x32x32, .f32⟩
  | .hbm, ⟨23, _⟩ => ⟨S100000x32x32, .i1⟩
  | .hbm, ⟨24, _⟩ => ⟨S_, .f32⟩
  | .hbm, ⟨25, _⟩ => ⟨S100000x32x32, .f32⟩
  | .hbm, ⟨26, _⟩ => ⟨S100000x32x32, .f32⟩
  | .hbm, ⟨27, _⟩ => ⟨S100000x1024, .f32⟩
  | .hbm, ⟨28, _⟩ => ⟨S100000x1088, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  bcast_S100000x32_S100000x32x1_0_1 : S100000x32.BroadcastsInDim S100000x32x1 (![0, 1] : Fin 2 → Fin S100000x32x1.rank)
  bcast_S_S100000x32x1 : S_.BroadcastsInDim S100000x32x1 (![] : Fin 0 → Fin S100000x32x1.rank)
  bcast_S1_S1x1x1_2 : S1.BroadcastsInDim S1x1x1 (![2] : Fin 1 → Fin S1x1x1.rank)
  bcast_S1x1x1_S100000x32x1_0_1_2 : S1x1x1.BroadcastsInDim S100000x32x1 (![0, 1, 2] : Fin 3 → Fin S100000x32x1.rank)
  reducesTo_S100000x32x1_S100000x32_d2 : S100000x32x1.ReducesTo [2] S100000x32
  h_S_ : 0 < S_.numel
  bcast_S100000x32_S100000x32x32_0_1 : S100000x32.BroadcastsInDim S100000x32x32 (![0, 1] : Fin 2 → Fin S100000x32x32.rank)
  bcast_S_S100000x32x32 : S_.BroadcastsInDim S100000x32x32 (![] : Fin 0 → Fin S100000x32x32.rank)
  shapeCasts_S100000x32x32_S100000x1024 : S100000x32x32.ShapeCasts S100000x1024
  concatenates_S100000x1024_S100000x32_S100000x32_S100000x1088_d1 : Shape.Concatenates [S100000x1024, S100000x32, S100000x32] S100000x1088 1
  gather_S100000x32_S100000x32x1_S100000x32x32_2_0_n_n_0_2_132_wf : GatherDims.WF S100000x32 S100000x32x1 S100000x32x32 [2] [0] [] [0] [] 2 ![1, 32]

variable [Facts₀]

def gather_S100000x32_S100000x32x1_S100000x32x32_2_0_n_n_0_2_132 : GatherDims S100000x32 S100000x32x1 S100000x32x32 where
  offsetDims := [2]
  collapsedSliceDims := [0]
  operandBatchingDims := []
  startIndicesBatchingDims := []
  startIndexMap := [0]
  indexVectorDim := 2
  sliceSizes := ![1, 32]
  wf := gather_S100000x32_S100000x32x1_S100000x32x32_2_0_n_n_0_2_132_wf

class Facts : Prop extends Facts₀ where

variable [Facts]
-- ==== Proof.RowConcat.lean ====
/-
  Rows laid side by side.

  An array with R rows and 1088 columns is here three arrays with the same R rows set next to one another along the
  column axis: columns 0..1023 come from a first array of 1024 columns, columns 1024..1055 from a second of 32
  columns, columns 1056..1087 from a third of 32 columns.  Reading such a concatenation at row r and column k
  therefore reads exactly one of the three, at row r and at the column k, k - 1024 or k - 1056.  The same holds for
  two arrays of 32 columns set side by side into 64 columns.  Nothing here depends on what the entries are: they are
  only moved, never computed with.
-/
import Idealize.ShloMosaic.Lib.Pipeline.Value
import Idealize.ShloMosaic.Lib.ValueIdx

noncomputable section

namespace Cert.RowConcat

open Idealize.ShloMosaic Idealize.ShloMosaic.ValueIdx

variable {α : Type} {R : Nat}

/-- The shape of R rows and n columns. -/
abbrev Rows (R n : Nat) : Shape := ⟨2, ![R, n]⟩

/-- Three arrays of 1024, 32 and 32 columns side by side, read in the first 1024 columns: the first array there. -/
theorem cat3_first (g : (Rows R 1024).Idx → α) (d a : (Rows R 32).Idx → α)
    (h : Shape.Concatenates [Rows R 1024, Rows R 32, Rows R 32] (Rows R 1088) 1)
    (r : Fin R) (k : Fin 1088) (hk : k.val < 1024) :
    concatenate (Rows R 1088) 1 [⟨Rows R 1024, g⟩, ⟨Rows R 32, d⟩, ⟨Rows R 32, a⟩] h (ix2 r k)
      = g (ix2 r ⟨k.val, hk⟩) := by
  refine concatenate_apply_piece (1 : Fin (Rows R 1088).rank)
    ([⟨Rows R 1024, g⟩, ⟨Rows R 32, d⟩, ⟨Rows R 32, a⟩] : List ((s : Shape) × (s.Idx → α))) h (ix2 r k) 0 (by simp) (Rows R 1024) g rfl rfl 0
    (by simp) (ix2 r ⟨k.val, hk⟩) ?_ ?_
  · intro b hb
    match b with
    | ⟨0, _⟩ => rfl
    | ⟨1, _⟩ => exact absurd rfl hb
  · show 0 + k.val = k.val
    omega

/-- The same concatenation read in columns 1024..1055: the second array, 1024 columns to the left. -/
theorem cat3_second (g : (Rows R 1024).Idx → α) (d a : (Rows R 32).Idx → α)
    (h : Shape.Concatenates [Rows R 1024, Rows R 32, Rows R 32] (Rows R 1088) 1)
    (r : Fin R) (k : Fin 1088) (hlo : 1024 ≤ k.val) (hhi : k.val < 1056) :
    concatenate (Rows R 1088) 1 [⟨Rows R 1024, g⟩, ⟨Rows R 32, d⟩, ⟨Rows R 32, a⟩] h (ix2 r k)
      = d (ix2 r ⟨k.val - 1024, by omega⟩) := by
  refine concatenate_apply_piece (1 : Fin (Rows R 1088).rank)
    ([⟨Rows R 1024, g⟩, ⟨Rows R 32, d⟩, ⟨Rows R 32, a⟩] : List ((s : Shape) × (s.Idx → α))) h (ix2 r k) 1 (by simp) (Rows R 32) d rfl rfl 1024
    (by simp) (ix2 r ⟨k.val - 1024, by omega⟩) ?_ ?_
  · intro b hb
    match b with
    | ⟨0, _⟩ => rfl
    | ⟨1, _⟩ => exact absurd rfl hb
  · show 1024 + (k.val - 1024) = k.val
    omega

/-- The same concatenation read in columns 1056..1087: the third array, 1056 columns to the left. -/
theorem cat3_third (g : (Rows R 1024).Idx → α) (d a : (Rows R 32).Idx → α)
    (h : Shape.Concatenates [Rows R 1024, Rows R 32, Rows R 32] (Rows R 1088) 1)
    (r : Fin R) (k : Fin 1088) (hlo : 1056 ≤ k.val) :
    concatenate (Rows R 1088) 1 [⟨Rows R 1024, g⟩, ⟨Rows R 32, d⟩, ⟨Rows R 32, a⟩] h (ix2 r k)
      = a (ix2 r ⟨k.val - 1056, by have := k.isLt; omega⟩) := by
  refine concatenate_apply_piece (1 : Fin (Rows R 1088).rank)
    ([⟨Rows R 1024, g⟩, ⟨Rows R 32, d⟩, ⟨Rows R 32, a⟩] : List ((s : Shape) × (s.Idx → α))) h (ix2 r k) 2 (by simp) (Rows R 32) a rfl rfl 1056
    (by simp) (ix2 r ⟨k.val - 1056, by have := k.isLt; omega⟩) ?_ ?_
  · intro b hb
    match b with
    | ⟨0, _⟩ => rfl
    | ⟨1, _⟩ => exact absurd rfl hb
  · show 1056 + (k.val - 1056) = k.val
    omega

/-- Two arrays of 32 columns side by side, read in the first 32 columns: the first array there. -/
theorem cat2_first (d a : (Rows R 32).Idx → α)
    (h : Shape.Concatenates [Rows R 32, Rows R 32] (Rows R 64) 1) (r : Fin R) (k : Fin 64) (hk : k.val < 32) :
    concatenate (Rows R 64) 1 [⟨Rows R 32, d⟩, ⟨Rows R 32, a⟩] h (ix2 r k) = d (ix2 r ⟨k.val, hk⟩) := by
  refine concatenate_pair_apply_left (1 : Fin (Rows R 64).rank) d a h (ix2 r k) rfl (ix2 r ⟨k.val, hk⟩) ?_
  intro b
  match b with
  | ⟨0, _⟩ => rfl
  | ⟨1, _⟩ => rfl

/-- Read in columns 32..63: the second array, 32 columns to the left. -/
theorem cat2_second (d a : (Rows R 32).Idx → α)
    (h : Shape.Concatenates [Rows R 32, Rows R 32] (Rows R 64) 1) (r : Fin R) (k : Fin 64) (hk : 32 ≤ k.val) :
    concatenate (Rows R 64) 1 [⟨Rows R 32, d⟩, ⟨Rows R 32, a⟩] h (ix2 r k)
      = a (ix2 r ⟨k.val - 32, by have := k.isLt; omega⟩) := by
  refine concatenate_pair_apply_right (1 : Fin (Rows R 64).rank) d a h (ix2 r k) rfl rfl
    (ix2 r ⟨k.val - 32, by have := k.isLt; omega⟩) ?_ ?_
  · intro b hb
    match b with
    | ⟨0, _⟩ => rfl
    | ⟨1, _⟩ => exact absurd rfl hb
  · show (k.val - 32) + 32 = k.val
    omega

/-- Laying three arrays side by side only looks along a row: if row r of the first three arrays is row r' of three other
    arrays, entry by entry, then row r of the first concatenation is row r' of the second. -/
theorem cat3_row_congr {R' : Nat} (g : (Rows R 1024).Idx → α) (d a : (Rows R 32).Idx → α)
    (g' : (Rows R' 1024).Idx → α) (d' a' : (Rows R' 32).Idx → α)
    (h : Shape.Concatenates [Rows R 1024, Rows R 32, Rows R 32] (Rows R 1088) 1)
    (h' : Shape.Concatenates [Rows R' 1024, Rows R' 32, Rows R' 32] (Rows R' 1088) 1)
    (r : Fin R) (r' : Fin R') (k : Fin 1088)
    (hg : ∀ j : Fin 1024, g (ix2 r j) = g' (ix2 r' j)) (hd : ∀ j : Fin 32, d (ix2 r j) = d' (ix2 r' j))
    (ha : ∀ j : Fin 32, a (ix2 r j) = a' (ix2 r' j)) :
    concatenate (Rows R 1088) 1 [⟨Rows R 1024, g⟩, ⟨Rows R 32, d⟩, ⟨Rows R 32, a⟩] h (ix2 r k)
      = concatenate (Rows R' 1088) 1 [⟨Rows R' 1024, g'⟩, ⟨Rows R' 32, d'⟩, ⟨Rows R' 32, a'⟩] h' (ix2 r' k) := by
  have hk := k.isLt
  by_cases h1 : k.val < 1024
  · rw [cat3_first g d a h r k h1, cat3_first g' d' a' h' r' k h1]
    exact hg _
  · by_cases h2 : k.val < 1056
    · rw [cat3_second g d a h r k (by omega) h2, cat3_second g' d' a' h' r' k (by omega) h2]
      exact hd _
    · rw [cat3_third g d a h r k (by omega), cat3_third g' d' a' h' r' k (by omega)]
      exact ha _

/-- 1024 + 32 + 32 columns make 1088, at 100000 rows. -/
theorem whole_wf : Shape.Concatenates [Rows 100000 1024, Rows 100000 32, Rows 100000 32] (Rows 100000 1088) 1 := by
  decide

/-- The whole result: the flattened gathered array, the distances and the angles side by side. -/
def sideBySide (g : (Rows 100000 1024).Idx → α) (d a : (Rows 100000 32).Idx → α) : (Rows 100000 1088).Idx → α :=
  concatenate (Rows 100000 1088) 1 [⟨Rows 100000 1024, g⟩, ⟨Rows 100000 32, d⟩, ⟨Rows 100000 32, a⟩] whole_wf

end Cert.RowConcat

end
-- ==== Proof.StoredBlock.lean ====
/-
  What one grid step leaves in its output block.

  A step holds 2000 rows of the flattened gathered array (1024 columns) and the same 2000 rows of the distances and of
  the angles (32 columns each).  It writes the first into columns 0..1023 of its 2000 x 1088 output block and the other
  two, set side by side, into columns 1024..1087.  The two writes fill the block between them, and every entry written
  is the entry that the three blocks laid side by side have at the place written to: an entry of the first write at
  column k is the first block's entry at column k; an entry of the second write at column k of its 64 is the second
  block's entry at column k when k < 32 and the third block's at column k - 32 otherwise, and lands at column
  1024 + k.  So the block ends holding the three blocks laid side by side.  No entry is computed with; the reshape the
  first write passes its block through keeps the shape and is the identity.
-/
import proofs.«402661_j31980326486772_3_alg».proof.Proof.Gen.KernelIdeal.Frame
import proofs.«402661_j31980326486772_3_alg».proof.Proof.RowConcat
import Idealize.ShloMosaic.Lib.Pipeline.Value

set_option maxRecDepth 16384

noncomputable section

namespace Cert.KernelIdeal.StoredBlock

open Cert.KernelIdeal Cert.KernelIdeal.Gen Cert.RowConcat
open Idealize.ShloMosaic Idealize.ShloMosaic.TcCoe Idealize.ShloMosaic.Tactic Idealize.ShloMosaic.ValueIdx Idealize.SL.Sem

variable {F : FTy → Type} [FloatOps F]

theorem zero_off : (![0, 0] : Fin 2 → Nat) = fun _ => 0 := funext fun a => by fin_cases a <;> rfl

/-- 1024 + 32 + 32 columns make the block's 1088. -/
theorem side_by_side : Shape.Concatenates [S2000x1024, S2000x32, S2000x32] S2000x1088 1 := by decide

/-- The three blocks of a step laid side by side along the columns. -/
def laid (x0 : Vec F S2000x1024 .f32) (x1 x2 : Vec F S2000x32 .f32) : Vec F S2000x1088 .f32 :=
  concatenate S2000x1088 1 [⟨S2000x1024, x0⟩, ⟨S2000x32, x1⟩, ⟨S2000x32, x2⟩] side_by_side

/-- An entry of the first write is the first block's entry, which is where the laid-out block has it. -/
theorem head_entry (x0 : Vec F S2000x1024 .f32) (x1 x2 : Vec F S2000x32 .f32) (r : Fin 2000) (k : Fin 1024) :
    k0_pay1 x0 (ix2 r k) = laid x0 x1 x2 (ix2 r ⟨k.val, by have := k.isLt; omega⟩) := by
  unfold k0_pay1 laid
  rw [shapeCast_self]
  exact (cat3_first (R := 2000) x0 x1 x2 side_by_side r ⟨k.val, by have := k.isLt; omega⟩ k.isLt).symm

/-- An entry of the second write at column k of 64 is the laid-out block's entry at column 1024 + k. -/
theorem tail_entry (x0 : Vec F S2000x1024 .f32) (x1 x2 : Vec F S2000x32 .f32) (r : Fin 2000) (k : Fin 64) :
    k0_pay2 x1 x2 (ix2 r k) = laid x0 x1 x2 (ix2 r ⟨1024 + k.val, by have := k.isLt; omega⟩) := by
  have hk := k.isLt
  unfold k0_pay2 laid
  by_cases h : k.val < 32
  · rw [cat2_first (R := 2000) x1 x2 concatenates_S2000x32_S2000x32_S2000x64_d1 r k h,
      cat3_second (R := 2000) x0 x1 x2 side_by_side r ⟨1024 + k.val, by omega⟩ (by show 1024 ≤ 1024 + k.val; omega)
        (by show 1024 + k.val < 1056; omega)]
    exact congrArg x1 (congrArg (ix2 r) (Fin.ext (by show k.val = 1024 + k.val - 1024; omega)))
  · rw [cat2_second (R := 2000) x1 x2 concatenates_S2000x32_S2000x32_S2000x64_d1 r k (by omega),
      cat3_third (R := 2000) x0 x1 x2 side_by_side r ⟨1024 + k.val, by omega⟩ (by show 1056 ≤ 1024 + k.val; omega)]
    exact congrArg x2 (congrArg (ix2 r) (Fin.ext (by show k.val - 32 = 1024 + k.val - 1056; omega)))

/-- After the body, the output block is the step's three blocks laid side by side, whatever staging buffers it ran on. -/
theorem stored_eq (c : Dev nD) (i : grid0.Coords) (arg1 : Memref sig .tc .vmem S2000x1024 .f32) (harg1 : arg1.IsWhole)
    (arg2 : Memref sig .tc .vmem S2000x32 .f32) (harg2 : arg2.IsWhole) (arg3 : Memref sig .tc .vmem S2000x32 .f32)
    (harg3 : arg3.IsWhole) (arg4 : Memref sig .tc .vmem S2000x1088 .f32) (harg4 : arg4.IsWhole)
    (x0 : Vec F S2000x1024 .f32) (x1 : Vec F S2000x32 .f32) (x2 : Vec F S2000x32 .f32) :
    out0_A_3 c i arg1 harg1 arg2 harg2 arg3 harg3 arg4 harg4 x0 x1 x2 = laid x0 x1 x2 := by
  unfold out0_A_3
  rw [View.read_writes_eq_canon _ _ _ (cover0_A_3 c i arg1 harg1 arg2 harg2 arg3 harg3 arg4 harg4 x0 x1 x2)]
  funext y
  refine View.canon_apply_of_pieces (laid x0 x1 x2) _ ?_ y
    (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S2000x1024) zero_off, View.ld_unit_zero (S := S2000x32) zero_off]
  refine List.forall_mem_cons.2 ⟨?_, List.forall_mem_cons.2 ⟨?_, fun _ h => absurd h List.not_mem_nil⟩⟩
  · intro x
    obtain ⟨r, k, rfl⟩ : ∃ (r : Fin 2000) (k : Fin 64), x = ix2 r k := ⟨x 0, x 1, eq_ix2 x⟩
    refine (tail_entry x0 x1 x2 r k).trans (congrArg (laid x0 x1 x2) ?_)
    funext a
    apply Fin.ext
    match a with
    | ⟨0, _⟩ => show r.val = 0 + 1 * r.val; omega
    | ⟨1, _⟩ => show 1024 + k.val = 1024 + 1 * k.val; omega
  · intro x
    obtain ⟨r, k, rfl⟩ : ∃ (r : Fin 2000) (k : Fin 1024), x = ix2 r k := ⟨x 0, x 1, eq_ix2 x⟩
    refine (head_entry x0 x1 x2 r k).trans (congrArg (laid x0 x1 x2) ?_)
    funext a
    apply Fin.ext
    match a with
    | ⟨0, _⟩ => show r.val = 0 + 1 * r.val; omega
    | ⟨1, _⟩ => show k.val = 0 + 1 * k.val; omega

end Cert.KernelIdeal.StoredBlock

end
-- ==== Proof.WholeArray.lean ====
/-
  From the steps' blocks to the whole array.

  The grid has 50 steps; step t works on rows 2000 t .. 2000 t + 1999 of every array: its block of the flattened
  gathered array, of the distances and of the angles are those rows of the three arrays, and the block it writes back
  is those rows of the result.  A step leaves in its output block its three input blocks laid side by side, and laying
  side by side only looks along a row; so what step t writes back is rows 2000 t .. 2000 t + 1999 of the three whole
  arrays laid side by side.  Every row r lies in the block of step r / 2000, so the 50 blocks fill the result, which
  therefore ends as the three whole arrays laid side by side: the flattened gathered array as the region finds it, and
  the distances and the angles as the program was given them.
-/
import proofs.«402661_j31980326486772_3_alg».proof.Proof.Gen.KernelIdeal.Value
import proofs.«402661_j31980326486772_3_alg».proof.Proof.StoredBlock
import proofs.«402661_j31980326486772_3_alg».proof.Proof.RowConcat
import Idealize.ShloMosaic.Lib.Pipeline.Value

set_option maxRecDepth 16384

noncomputable section

namespace Cert.KernelIdeal.WholeArray

open Cert.KernelIdeal Cert.KernelIdeal.Gen Cert.KernelIdeal.StoredBlock Cert.RowConcat
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The three arrays as the region finds them, and a step's block of each, at their plain types. -/
abbrev garr (c : Dev nD) : Vec F S100000x1024 .f32 := V m c main_v1
abbrev darr (c : Dev nD) : Vec F S100000x32 .f32 := V m c main_arg2
abbrev aarr (c : Dev nD) : Vec F S100000x32 .f32 := V m c main_arg3
abbrev gblk (c : Dev nD) (t : Fin cfg0.N) : Vec F S2000x1024 .f32 := iblk m c 0 t
abbrev dblk (c : Dev nD) (t : Fin cfg0.N) : Vec F S2000x32 .f32 := iblk m c 1 t
abbrev ablk (c : Dev nD) (t : Fin cfg0.N) : Vec F S2000x32 .f32 := iblk m c 2 t

/-- Every window's block index at step t is (t, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 50 := lt_of_lt_of_eq t.isLt N_0

/-- Row r of step t's block of any array of 1024 columns is row 2000 t + r of the array. -/
theorem wide_block_row (X : Vec F S100000x1024 .f32) (t : Fin cfg0.N) (r : Fin 2000) (j : Fin 1024) :
    ((cfg0.win 0).blk t).view.read (Elt F) X (ix2 r j)
      = X (ix2 ⟨2000 * t.val + r.val, by have := step_lt t; have := r.isLt; omega⟩ j) := by
  rw [View.read_apply]
  refine congrArg X ?_
  obtain ⟨e0, e1, -⟩ := block_index t
  funext a
  apply Fin.ext
  match a with
  | ⟨0, _⟩ => show win0_0.index t (0 : Fin 2) * 2000 + 1 * r.val = 2000 * t.val + r.val; omega
  | ⟨1, _⟩ => show win0_0.index t (1 : Fin 2) * 1024 + 1 * j.val = j.val; omega

/-- The same for the second window's blocks, of 32 columns, -/
theorem dist_block_row (X : Vec F S100000x32 .f32) (t : Fin cfg0.N) (r : Fin 2000) (j : Fin 32) :
    ((cfg0.win 1).blk t).view.read (Elt F) X (ix2 r j)
      = X (ix2 ⟨2000 * t.val + r.val, by have := step_lt t; have := r.isLt; omega⟩ j) := by
  rw [View.read_apply]
  refine congrArg X ?_
  obtain ⟨-, -, e0, e1, -⟩ := block_index t
  funext a
  apply Fin.ext
  match a with
  | ⟨0, _⟩ => show win0_1.index t (0 : Fin 2) * 2000 + 1 * r.val = 2000 * t.val + r.val; omega
  | ⟨1, _⟩ => show win0_1.index t (1 : Fin 2) * 32 + 1 * j.val = j.val; omega

/-- and for the third window's. -/
theorem angle_block_row (X : Vec F S100000x32 .f32) (t : Fin cfg0.N) (r : Fin 2000) (j : Fin 32) :
    ((cfg0.win 2).blk t).view.read (Elt F) X (ix2 r j)
      = X (ix2 ⟨2000 * t.val + r.val, by have := step_lt t; have := r.isLt; omega⟩ j) := by
  rw [View.read_apply]
  refine congrArg X ?_
  obtain ⟨-, -, -, -, e0, e1, -⟩ := block_index t
  funext a
  apply Fin.ext
  match a with
  | ⟨0, _⟩ => show win0_2.index t (0 : Fin 2) * 2000 + 1 * r.val = 2000 * t.val + r.val; omega
  | ⟨1, _⟩ => show win0_2.index t (1 : Fin 2) * 32 + 1 * j.val = j.val; omega

/-- A step's block of the gathered array is the block of the array as the region finds it; likewise the other two. -/
theorem gblk_row (c : Dev nD) (t : Fin cfg0.N) (r : Fin 2000) (j : Fin 1024) :
    gblk m c t (ix2 r j)
      = garr m c (ix2 ⟨2000 * t.val + r.val, by have := step_lt t; have := r.isLt; omega⟩ j) :=
  wide_block_row (garr m c) t r j
theorem dblk_row (c : Dev nD) (t : Fin cfg0.N) (r : Fin 2000) (j : Fin 32) :
    dblk m c t (ix2 r j)
      = darr m c (ix2 ⟨2000 * t.val + r.val, by have := step_lt t; have := r.isLt; omega⟩ j) :=
  dist_block_row (darr m c) t r j
theorem ablk_row (c : Dev nD) (t : Fin cfg0.N) (r : Fin 2000) (j : Fin 32) :
    ablk m c t (ix2 r j)
      = aarr m c (ix2 ⟨2000 * t.val + r.val, by have := step_lt t; have := r.isLt; omega⟩ j) :=
  angle_block_row (aarr m c) t r j

/-- What step t writes back is its block of rows of the three arrays laid side by side. -/
theorem written_eq (c : Dev nD) (t : Fin cfg0.N) :
    (dats m 0 c).flushed 3 t
      = ((cfg0.win 3).blk t).view.read (Elt F) (sideBySide (garr m c) (darr m c) (aarr m c)) := by
  rw [Value.flushed3_A]
  refine funext fun (y : S2000x1088.Idx) => ?_
  obtain ⟨r, k, rfl⟩ : ∃ (r : Fin 2000) (k : Fin 1088), y = ix2 r k := ⟨y 0, y 1, eq_ix2 y⟩
  show out0_A_3 c (grid0.coords t) (ms0_0 t) (hs0_0 t) (ms0_1 t) (hs0_1 t) (ms0_2 t) (hs0_2 t) (ms0_3 t) (hs0_3 t)
      (gblk m c t) (dblk m c t) (ablk m c t) (ix2 r k)
    = sideBySide (garr m c) (darr m c) (aarr m c) (((cfg0.win 3).blk t).view.emb (ix2 r k))
  refine (congrFun (stored_eq c (grid0.coords t) (ms0_0 t) (hs0_0 t) (ms0_1 t) (hs0_1 t) (ms0_2 t) (hs0_2 t)
    (ms0_3 t) (hs0_3 t) (gblk m c t) (dblk m c t) (ablk m c t)) (ix2 r k)).trans ?_
  have hrow : 2000 * t.val + r.val < 100000 := by have := step_lt t; have := r.isLt; omega
  have hemb : ((cfg0.win 3).blk t).view.emb (ix2 r k) = ix2 (⟨2000 * t.val + r.val, hrow⟩ : Fin 100000) k := by
    obtain ⟨-, -, -, -, -, -, e0, e1⟩ := block_index t
    funext a
    apply Fin.ext
    match a with
    | ⟨0, _⟩ => show win0_3.index t (0 : Fin 2) * 2000 + 1 * r.val = 2000 * t.val + r.val; omega
    | ⟨1, _⟩ => show win0_3.index t (1 : Fin 2) * 1088 + 1 * k.val = k.val; omega
  rw [hemb]
  exact cat3_row_congr (R := 2000) (R' := 100000) (gblk m c t) (dblk m c t) (ablk m c t) (garr m c) (darr m c) (aarr m c)
    side_by_side whole_wf r ⟨2000 * t.val + r.val, hrow⟩ k (gblk_row m c t r) (dblk_row m c t r) (ablk_row m c t r)

/-- An index of the result lies in step t's block iff its row is one of the step's 2000 (the block has all 1088 columns). -/
theorem in_block_iff (t : Fin cfg0.N) (i : S100000x1088.Idx) :
    i ∈ ((cfg0.win 3).blk t).view.set ↔ ∀ a : Fin 2, win0_3.index t a * S2000x1088.size a ≤ (i a).val
      ∧ (i a).val < win0_3.index t a * S2000x1088.size a + S2000x1088.size a := by
  show i ∈ ((View.whole main_v2).slice (win0_3.rect t)).set ↔ _
  rw [View.set_slice_whole, Rect.mem_set_unit]
  exact Iff.rfl

/-- Every index of the result is in the block of the step its row falls in. -/
theorem covered (i : S100000x1088.Idx) :
    ∃ t : Fin cfg0.N, (cfg0.win 3).flush t = true ∧ i ∈ ((cfg0.win 3).blk t).view.set := by
  have hi0 : (i 0).val < 100000 := (i 0).isLt
  have hi1 : (i 1).val < 1088 := (i 1).isLt
  let t : Fin cfg0.N := ⟨(i 0).val / 2000, by rw [show cfg0.N = 50 from N_0]; omega⟩
  refine ⟨t, flush0_3 t, (in_block_iff t i).2 ?_⟩
  obtain ⟨-, -, -, -, -, -, e0, e1⟩ := block_index t
  have ht : t.val = (i 0).val / 2000 := rfl
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 1088 ≤ (i 1).val ∧ (i 1).val < win0_3.index t (1 : Fin 2) * 1088 + 1088
    omega

/-- The result after the region: the three arrays laid side by side. -/
theorem final (c : Dev nD) :
    (dats m 0 c).arrAt 3 cfg0.N = sideBySide (garr m c) (darr m c) (aarr m c) :=
  (dats m 0 c).arrAt_eq_of_cover 3 (sideBySide (garr m c) (darr m c) (aarr m c)) (fun t _ => written_eq m c t) covered

end Cert.KernelIdeal.WholeArray

end
-- ==== Proof.TakenRows.lean ====
/-
  Rows taken from a table by number, laid flat.

  x is a table of 100000 rows of 32 numbers and idx an array of 100000 x 32 row numbers.  For every place (n, w) the
  row of x numbered idx n w is taken.  A negative number counts from the end: 100000 is added to it first.  Where the
  number so obtained still lies outside 0..99999 the 32 entries taken are a fixed fill pattern instead of a row of x.
  That gives 100000 x 32 x 32 entries, re-laid in row-major order as 100000 rows of 1024.

  Both programs compute this array from their first two arguments by the same chain of operations with the same
  constants.  It is written down here once, as one function of x and idx, so that each program's array can be named by
  it and the chain need never be opened when the two results are compared.
-/
import Idealize.ShloMosaic.Lib.StableHlo
import Idealize.ShloMosaic.PureOps

noncomputable section

namespace Cert.TakenRows

open Idealize.ShloMosaic

abbrev Tbl : Shape := ⟨2, ![100000, 32]⟩
abbrev Sc : Shape := ⟨0, ![]⟩
abbrev Tbl1 : Shape := ⟨3, ![100000, 32, 1]⟩
abbrev One : Shape := ⟨1, ![1]⟩
abbrev One3 : Shape := ⟨3, ![1, 1, 1]⟩
abbrev Cube : Shape := ⟨3, ![100000, 32, 32]⟩
abbrev Flat : Shape := ⟨2, ![100000, 1024]⟩

/-- The relations between the shapes that the chain's operations ask for. -/
structure ShapeFacts : Prop where
  sc_tbl : Sc.BroadcastsInDim Tbl (![] : Fin 0 → Fin Tbl.rank)
  tbl_tbl1 : Tbl.BroadcastsInDim Tbl1 (![0, 1] : Fin 2 → Fin Tbl1.rank)
  sc_tbl1 : Sc.BroadcastsInDim Tbl1 (![] : Fin 0 → Fin Tbl1.rank)
  one_one3 : One.BroadcastsInDim One3 (![2] : Fin 1 → Fin One3.rank)
  one3_tbl1 : One3.BroadcastsInDim Tbl1 (![0, 1, 2] : Fin 3 → Fin Tbl1.rank)
  red : Tbl1.ReducesTo [2] Tbl
  sc_pos : 0 < Sc.numel
  tbl_cube : Tbl.BroadcastsInDim Cube (![0, 1] : Fin 2 → Fin Cube.rank)
  sc_cube : Sc.BroadcastsInDim Cube (![] : Fin 0 → Fin Cube.rank)
  cube_flat : Cube.ShapeCasts Flat
  gwf : GatherDims.WF Tbl Tbl1 Cube [2] [0] [] [0] [] 2 ![1, 32]

theorem shapeFacts : ShapeFacts :=
  ⟨by decide, by decide, by decide, by decide, by decide, by decide, by decide, by decide, by decide, by decide, by decide⟩

variable {F : FTy → Type} [FloatOps F]

/-- One whole row of 32 entries is taken per row number: the row axis of the table is indexed, the entry axis kept. -/
def rowGather (h : ShapeFacts) : GatherDims Tbl Tbl1 Cube where
  offsetDims := [2]
  collapsedSliceDims := [0]
  operandBatchingDims := []
  startIndicesBatchingDims := []
  startIndexMap := [0]
  indexVectorDim := 2
  sliceSizes := ![1, 32]
  wf := h.gwf

/-- The row numbers with a negative one counted from the end, each as an index vector of length one. -/
def rowNumbers (h : ShapeFacts) (idx : IVec Tbl 32) : IVec Tbl1 32 :=
  broadcastInDim Tbl1 ![0, 1] h.tbl_tbl1
    (select (cmpi .slt idx (broadcastInDim Tbl ![] h.sc_tbl (constantI Sc 32 0#32)))
      (addi idx (broadcastInDim Tbl ![] h.sc_tbl (constantI Sc 32 100000#32))) idx)

/-- Whether a place's row number lies in 0..99999. -/
def inTable (h : ShapeFacts) (idx : IVec Tbl 32) : IVec Tbl 1 :=
  Host.reduce IntOp.andi
    (andi (cmpi .sge (rowNumbers h idx) (broadcastInDim Tbl1 ![] h.sc_tbl1 (constantI Sc 32 0#32)))
      (cmpi .sle (rowNumbers h idx)
        (broadcastInDim Tbl1 ![0, 1, 2] h.one3_tbl1 (broadcastInDim One3 ![2] h.one_one3 (constantI One 32 99999#32)))))
    (constantI Sc 1 1#1) h.red h.sc_pos

/-- The rows taken, the fill pattern where the number is outside the table: 100000 x 32 rows of 32 entries. -/
def cube (h : ShapeFacts) (x : FVec F Tbl .f32) (idx : IVec Tbl 32) : FVec F Cube .f32 :=
  select (broadcastInDim Cube ![0, 1] h.tbl_cube (inTable h idx))
    (Host.gather (rowGather h) x (rowNumbers h idx))
    (broadcastInDim Cube ![] h.sc_cube (constant Sc .f32 0x7FC00000#32))

/-- The same entries laid flat in row-major order, 100000 rows of 1024. -/
def taken (h : ShapeFacts) (x : FVec F Tbl .f32) (idx : IVec Tbl 32) : FVec F Flat .f32 :=
  shapeCast Flat (cube h x idx) h.cube_flat

end Cert.TakenRows

end
-- ==== Proof.LibHostLine.lean ====
/-
  Three general facts about a straight line of host operations.

  Running a line of operations folds them over the contents of the buffers, the first operation innermost.  So running
  one line and then another is running the second over what the first left.  And the result of an operation with three
  operands listed one by one is its function of the three operands' contents, each at its own reference, so that what is
  known of each operand can be put in its place.  Last, an operation written over typed references moves each value to its
  buffer's own type and back; there and back is the identity.
-/
import Idealize.ShloMosaic.Lib.StableHlo.Run

noncomputable section

namespace Cert.Lib

open Idealize.ShloMosaic Idealize.ShloMosaic.StableHlo Idealize.ShloMosaic.TcCoe

variable {τ : Topo} {sig : RefSig} {Val : EltTy → Type}

/-- A line followed by another: the second runs over what the first left. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's buffer type and back are unchanged. -/
theorem ofBuf_toBuf {T : BufTy} (x : TRef sig T) (v : T.Contents Val) : x.ofBuf (x.toBuf v) = v := by
  obtain ⟨r, h, _, _⟩ := x
  subst h
  rfl

/-- The result of a three-operand operation at its result buffer, with each operand's contents at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b))
          (fun i => i.elim0)))) := by
  rw [nary_result]; congr 1; funext k; fin_cases k <;> rfl

end Cert.Lib

end
-- ==== Proof.KernelRun.lean ====
/-
  The kernel's program, run.

  Before the grid the program takes the rows of x numbered by idx and lays them flat, by the same operations as the
  reference; so the array the grid's first window reads is that one function of x and idx.  The other two windows read
  the distances and the angles, which nothing before the grid writes.  The grid leaves the result at these three arrays
  laid side by side, and the arguments end as they began.
-/
import proofs.«402661_j31980326486772_3_alg».proof.Proof.Gen.KernelIdeal.Value
import proofs.«402661_j31980326486772_3_alg».proof.Proof.WholeArray
import proofs.«402661_j31980326486772_3_alg».proof.Proof.TakenRows
import proofs.«402661_j31980326486772_3_alg».proof.Proof.LibHostLine
import Idealize.ShloMosaic.Lib.StableHlo.Run

noncomputable section

namespace Cert.KernelIdeal.Whole

open Cert.KernelIdeal Cert.KernelIdeal.Gen Cert.KernelIdeal.WholeArray Cert.TakenRows Cert.RowConcat
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

-- the and-reduction over the last axis stands as it is on both sides: the equality is between the same operations of
-- the same operands and does not depend on what the reduction computes
attribute [local irreducible] Host.reduce in
/-- After the twenty-three operations of the row taking the 3-D array is the rows of x numbered by idx, -/
theorem cube_eq (W : Valuation τ sig (Elt F)) :
    after hostOps0 W (main_v0 : DevRef τ sig)
      = cube shapeFacts (W (main_arg0 : DevRef τ sig)) (W (main_arg1 : DevRef τ sig)) := by
  after_results_simp
  simp only [Cert.Lib.ofBuf_toBuf]
  rfl

/-- and the re-laying leaves the flat array at the 3-D one in row-major order, whatever it holds. -/
theorem relaid (W : Valuation τ sig (Elt F)) :
    after hostOps0_1 W (main_v1 : DevRef τ sig)
      = (shapeCast Flat (W (main_v0 : DevRef τ sig)) shapeFacts.cube_flat : FVec F Flat .f32) := by
  rw [after_cons, after_nil, reshape_result]
  rfl

/-- The array the first window reads is the rows of x numbered by idx, laid flat. -/
theorem gathered_eq (c : Dev nD) :
    garr m c = taken shapeFacts (m ((c : Thread nD τ).loc main_arg0)) (m ((c : Thread nD τ).loc main_arg1)) := by
  dsimp only [garr, V]
  rw [show List.flatten [hostOps0 (F := F), hostOps0_1] = hostOps0 ++ hostOps0_1 from by
      simp only [List.flatten_cons, List.flatten_nil, List.append_nil],
    Cert.Lib.after_append, relaid, cube_eq]
  rfl

/-- The second and third windows read the distances and the angles as given. -/
theorem dist_eq (c : Dev nD) : darr m c = m ((c : Thread nD τ).loc main_arg2) := V_main_arg2 m c
theorem angle_eq (c : Dev nD) : aarr m c = m ((c : Thread nD τ).loc main_arg3) := V_main_arg3 m c

/-- Every weakly fair execution of the kernel's program ends with the result at the three arrays laid side by side and the
    four arguments as they were. -/
theorem run : θ_run defs (onTc (τ := τ) (main (F := F))) ⟨m, fun _ => 0, ρ⟩ fun r => ∀ c : Dev nD,
      r.2.mem ((c : Thread nD τ).loc main_v2)
          = sideBySide (taken shapeFacts (m ((c : Thread nD τ).loc main_arg0)) (m ((c : Thread nD τ).loc main_arg1)))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c, gathered_eq m c, dist_eq m c, angle_eq m c], (h c).2⟩)
    (Value.run_blocks m ρ)

end Cert.KernelIdeal.Whole

end
-- ==== Proof.RefRun.lean ====
/-
  The reference read as one straight line.

  The reference takes the rows of x numbered by idx (counting a negative number from the end, and putting a fill pattern
  where the number is still outside the table), lays the 100000 x 32 x 32 entries flat as 100000 rows of 1024, and sets
  that array, the distances and the angles side by side.  Written out with the row-taking function's operations in the
  place where it is called, that is twenty-five operations in a line, each writing a buffer of its own.  Running the line
  leaves in the result buffer the last operation's function of what the earlier ones left, and no operation writes an
  argument; read back through the line, the result is the three arrays laid side by side, the first being the rows taken
  and laid flat as one function of x and idx.
-/
import proofs.«402661_j31980326486772_3_alg».proof.Proof.Gen.ReferenceIdeal
import proofs.«402661_j31980326486772_3_alg».proof.Proof.TakenRows
import proofs.«402661_j31980326486772_3_alg».proof.Proof.RowConcat
import proofs.«402661_j31980326486772_3_alg».proof.Proof.LibHostLine
import Idealize.ShloMosaic.Lib.StableHlo.Run

noncomputable section

namespace Cert.ReferenceIdeal.Straight

open Cert.ReferenceIdeal Cert.ReferenceIdeal.Gen Cert.TakenRows Cert.RowConcat
open Idealize.ShloMosaic Idealize.ShloMosaic.TcCoe Idealize.SL.Sem Idealize.ShloMosaic.StableHlo

variable {F : FTy → Type} [FloatOps F]

/-- The reference's twenty-five operations in order: the twenty-three of the row taking (the comparison with zero and
    the addition of 100000 that count a negative number from the end, the range test and its reduction, the gather, the
    fill pattern and the choice between them), the re-laying as rows of 1024, the concatenation. -/
abbrev ops : List (HloOp τ sig (Elt F)) :=
  [ TRef.nullary main_call0.c (constantI S_ 32 0#32),
    TRef.unary main_call0.c main_call0.v0 (broadcastInDim S100000x32 ![] bcast_S_S100000x32),
    TRef.binary (.of main_arg1) main_call0.v0 main_call0.v1 (cmpi .slt),
    TRef.nullary main_call0.c_0 (constantI S_ 32 100000#32),
    TRef.unary main_call0.c_0 main_call0.v2 (broadcastInDim S100000x32 ![] bcast_S_S100000x32),
    TRef.binary (.of main_arg1) main_call0.v2 main_call0.v3 addi,
    TRef.ternary main_call0.v1 main_call0.v3 (.of main_arg1) main_call0.call0.v0 select,
    TRef.unary main_call0.call0.v0 main_call0.v5 (broadcastInDim S100000x32x1 ![0, 1] bcast_S100000x32_S100000x32x1_0_1),
    TRef.nullary main_call0.c_1 (constantI S1 32 99999#32),
    TRef.nullary main_call0.c_2 (constantI S_ 32 0#32),
    TRef.unary main_call0.c_2 main_call0.v6 (broadcastInDim S100000x32x1 ![] bcast_S_S100000x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S100000x32x1 ![0, 1, 2] bcast_S1x1x1_S100000x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x32x1_S100000x32_d2 h_S_),
    TRef.binary (.of main_arg0) main_call0.v5 main_call0.v13 (fun x i => Host.gather gather_S100000x32_S100000x32x1_S100000x32x32_2_0_n_n_0_2_132 x i),
    TRef.unary main_call0.v12 main_call0.v14 (broadcastInDim S100000x32x32 ![0, 1] bcast_S100000x32_S100000x32x32_0_1),
    TRef.nullary main_call0.cst (constant S_ .f32 0x7FC00000#32),
    TRef.unary main_call0.cst main_call0.v15 (broadcastInDim S100000x32x32 ![] bcast_S_S100000x32x32),
    TRef.ternary main_call0.v14 main_call0.v13 main_call0.v15 main_call0.v16 select,
    reshape main_v0 main_v1 rfl shapeCasts_S100000x32x32_S100000x1024,
    nary ![main_v1, main_arg2, main_arg3] main_v2 (fun u => concatenate S100000x1088 1 [⟨S100000x1024, u 0⟩, ⟨S100000x32, u 1⟩, ⟨S100000x32, u 2⟩] concatenates_S100000x1024_S100000x32_S100000x32_S100000x1088_d1) ]

set_option maxRecDepth 1024 in
/-- The program is that line: the two called functions written out where they are called. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    nary_bufs_sub ..⟩

/-- The line's first twenty-three operations: the row taking. -/
abbrev gathering : List (HloOp τ sig (Elt F)) :=
  [ TRef.nullary main_call0.c (constantI S_ 32 0#32),
    TRef.unary main_call0.c main_call0.v0 (broadcastInDim S100000x32 ![] bcast_S_S100000x32),
    TRef.binary (.of main_arg1) main_call0.v0 main_call0.v1 (cmpi .slt),
    TRef.nullary main_call0.c_0 (constantI S_ 32 100000#32),
    TRef.unary main_call0.c_0 main_call0.v2 (broadcastInDim S100000x32 ![] bcast_S_S100000x32),
    TRef.binary (.of main_arg1) main_call0.v2 main_call0.v3 addi,
    TRef.ternary main_call0.v1 main_call0.v3 (.of main_arg1) main_call0.call0.v0 select,
    TRef.unary main_call0.call0.v0 main_call0.v5 (broadcastInDim S100000x32x1 ![0, 1] bcast_S100000x32_S100000x32x1_0_1),
    TRef.nullary main_call0.c_1 (constantI S1 32 99999#32),
    TRef.nullary main_call0.c_2 (constantI S_ 32 0#32),
    TRef.unary main_call0.c_2 main_call0.v6 (broadcastInDim S100000x32x1 ![] bcast_S_S100000x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S100000x32x1 ![0, 1, 2] bcast_S1x1x1_S100000x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x32x1_S100000x32_d2 h_S_),
    TRef.binary (.of main_arg0) main_call0.v5 main_call0.v13 (fun x i => Host.gather gather_S100000x32_S100000x32x1_S100000x32x32_2_0_n_n_0_2_132 x i),
    TRef.unary main_call0.v12 main_call0.v14 (broadcastInDim S100000x32x32 ![0, 1] bcast_S100000x32_S100000x32x32_0_1),
    TRef.nullary main_call0.cst (constant S_ .f32 0x7FC00000#32),
    TRef.unary main_call0.cst main_call0.v15 (broadcastInDim S100000x32x32 ![] bcast_S_S100000x32x32),
    TRef.ternary main_call0.v14 main_call0.v13 main_call0.v15 main_call0.v16 select ]

/-- The twenty-fourth: the re-laying as rows of 1024. -/
abbrev relaying : HloOp τ sig (Elt F) :=
  reshape main_v0 main_v1 rfl shapeCasts_S100000x32x32_S100000x1024

/-- The first twenty-four together. -/
abbrev taking : List (HloOp τ sig (Elt F)) := gathering ++ [relaying]

/-- The last: the concatenation. -/
abbrev laying : HloOp τ sig (Elt F) :=
  nary ![main_v1, main_arg2, main_arg3] main_v2 (fun u => concatenate S100000x1088 1 [⟨S100000x1024, u 0⟩, ⟨S100000x32, u 1⟩, ⟨S100000x32, u 2⟩] concatenates_S100000x1024_S100000x32_S100000x32_S100000x1088_d1)

theorem ops_split : (ops : List (HloOp τ sig (Elt F))) = taking ++ [laying] := rfl

-- the and-reduction over the last axis stands as it is on both sides: the equality is between the same operations of
-- the same operands and does not depend on what the reduction computes
attribute [local irreducible] Host.reduce in
/-- After the first twenty-three operations the 3-D array is the rows of x numbered by idx, -/
theorem cube_eq (V : Valuation τ sig (Elt F)) :
    after gathering V (main_v0 : DevRef τ sig)
      = cube shapeFacts (V (main_arg0 : DevRef τ sig)) (V (main_arg1 : DevRef τ sig)) := by
  after_results_simp
  simp only [Cert.Lib.ofBuf_toBuf]
  rfl

/-- the re-laying leaves the flat array at the 3-D one in row-major order, whatever it holds, -/
theorem relaying_result (W : Valuation τ sig (Elt F)) :
    (relaying (F := F)).result W (main_v1 : DevRef τ sig)
      = (shapeCast Flat (W (main_v0 : DevRef τ sig)) shapeFacts.cube_flat : FVec F Flat .f32) := by
  rw [reshape_result]
  rfl

/-- so after the first twenty-four the flat array is the rows taken, laid flat, -/
theorem flat_eq (V : Valuation τ sig (Elt F)) :
    after taking V (main_v1 : DevRef τ sig)
      = taken shapeFacts (V (main_arg0 : DevRef τ sig)) (V (main_arg1 : DevRef τ sig)) := by
  rw [Cert.Lib.after_append, after_cons, after_nil, relaying_result, cube_eq]
  rfl

/-- and the distances and the angles are untouched. -/
theorem dist_kept (V : Valuation τ sig (Elt F)) :
    after taking V (main_arg2 : DevRef τ sig) = V (main_arg2 : DevRef τ sig) := by
  rw [Cert.Lib.after_append]
  after_results_simp
theorem angle_kept (V : Valuation τ sig (Elt F)) :
    after taking V (main_arg3 : DevRef τ sig) = V (main_arg3 : DevRef τ sig) := by
  rw [Cert.Lib.after_append]
  after_results_simp

/-- The concatenation leaves the result at its three operands laid side by side, whatever they hold. -/
theorem laying_result (W : Valuation τ sig (Elt F)) :
    (laying (F := F)).result W (main_v2 : DevRef τ sig)
      = sideBySide (W (main_v1 : DevRef τ sig)) (W (main_arg2 : DevRef τ sig)) (W (main_arg3 : DevRef τ sig)) := by
  rw [Cert.Lib.nary3_result]
  rfl

/-- What the whole line leaves in the result buffer, over any contents of the buffers it starts from. -/
theorem result_eq (V : Valuation τ sig (Elt F)) :
    after ops V (main_v2 : DevRef τ sig)
      = sideBySide (taken shapeFacts (V (main_arg0 : DevRef τ sig)) (V (main_arg1 : DevRef τ sig)))
          (V (main_arg2 : DevRef τ sig)) (V (main_arg3 : DevRef τ sig)) := by
  rw [ops_split, Cert.Lib.after_append, after_cons, after_nil, laying_result, flat_eq, dist_kept, angle_kept]

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results

/-- Every weakly fair execution of the reference ends with the result at the three arrays laid side by side and the four
    arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = sideBySide (taken shapeFacts (m ((c.tc : Thread nD τ).loc main_arg0)) (m ((c.tc : Thread nD τ).loc main_arg1)))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (result_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.Straight

end
-- ==== Proof.lean ====
/-
  The kernel and the reference compute the same array.

  Both programs first take, for every one of 100000 x 32 places, the row of the table x that the place's entry of idx
  numbers (a negative number counted from the end, a fill pattern where the number is outside the table) and lay the
  100000 x 32 x 32 entries flat as 100000 rows of 1024: the same operations with the same constants in both.  The
  reference then sets this array, the distances and the angles side by side along the columns, 1024 + 32 + 32 = 1088.
  The kernel does the same in 50 steps of 2000 rows: each step copies its rows of the flat array into columns 0..1023
  of its output block and its rows of the distances and angles, set side by side, into columns 1024..1087, and the 50
  blocks tile the result.  Entries are only moved, never computed with, so nothing is asked of the inputs: the two
  results are the same function of the four arguments on all extended reals, and the precondition is not used.

  The frames of the two kernel programs are the generated ones; the reference's frame is its run with the result
  dropped.  The idealized kernel is the kernel's own text read at the exact instance: there is nothing to preserve.
-/
import proofs.«402661_j31980326486772_3_alg».proof.Defs
import proofs.«402661_j31980326486772_3_alg».proof.Proof.Gen.Kernel
import proofs.«402661_j31980326486772_3_alg».proof.Proof.Gen.Kernel.Frame
import proofs.«402661_j31980326486772_3_alg».proof.Proof.Gen.KernelIdeal
import proofs.«402661_j31980326486772_3_alg».proof.Proof.Gen.KernelIdeal.Frame
import proofs.«402661_j31980326486772_3_alg».proof.Proof.Gen.KernelIdeal.Value
import proofs.«402661_j31980326486772_3_alg».proof.Proof.Gen.ReferenceIdeal
import proofs.«402661_j31980326486772_3_alg».proof.Proof.Gen.Pre_finite_inputs
import proofs.«402661_j31980326486772_3_alg».proof.Proof.KernelRun
import proofs.«402661_j31980326486772_3_alg».proof.Proof.RefRun
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at the exact instance. -/
theorem frame_kernel_ideal : Cert.frame_KernelIdeal := fun m ρ _ => Cert.KernelIdeal.Gen.frame m ρ

/-- The reference runs and leaves its arguments alone: its run, the result dropped. -/
theorem frame_reference : Cert.frame_ReferenceIdeal := fun m ρ _ =>
  (θ_run Cert.ReferenceIdeal.defs _ _).mono (fun _ h c => (h c).2) (Cert.ReferenceIdeal.Straight.run (F := Ideal) m ρ)

/-- No operation of the kernel was rewritten for the exact reading. -/
theorem preserves : Cert.preserves_Kernel_KernelIdeal := trivial

/-- From arguments that agree, both programs end with the flat gathered array, the distances and the angles laid side
    by side: one function of the arguments. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
